-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S4x16x2048 : Shape := ⟨3, ![4, 16, 2048]⟩
abbrev S4x2048x16 : Shape := ⟨3, ![4, 2048, 16]⟩
abbrev S4 : Shape := ⟨1, ![4]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4x16x2048 : S_.BroadcastsInDim S4x16x2048 (![] : Fin 0 → Fin S4x16x2048.rank)
  reducesTo_S4x16x2048_S_d0_1_2 : S4x16x2048.ReducesTo [0, 1, 2] S_
  bcast_S_S4x2048x16 : S_.BroadcastsInDim S4x2048x16 (![] : Fin 0 → Fin S4x2048x16.rank)
  reducesTo_S4x2048x16_S_d0_1_2 : S4x2048x16.ReducesTo [0, 1, 2] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_v13 : IVec S_ 1) (main_v16 : IVec S4x2048x16 1) : IVec S_ 1 :=
  let main_c_5 : IVec S_ 1 := constantI S_ 1 1#1
  let main_v17 : IVec S_ 1 := (fun x v => Host.reduce IntOp.andi x v reducesTo_S4x2048x16_S_d0_1_2 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S16384x2048 .f32) (main_arg1 : FVec F S2048x2048 .f32) (main_arg2 : FVec F S4x16x2048 .f32) (main_arg3 : FVec F S4x2048x16 .f32) (main_arg4 : FVec F S4 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4x16x2048 .f32 := Host.absf main_arg2
  let main_cst_2 : FVec F S_ .f32 := constant S_ .f32 0x7F800000#32
  let main_v10 : FVec F S4x16x2048 .f32 := broadcastInDim S4x16x2048 ![] bcast_S_S4x16x2048 main_cst_2
  let main_v11 : IVec S4x16x2048 1 := cmpf .olt main_v9 main_v10
  let main_c_3 : IVec S_ 1 := constantI S_ 1 1#1
  let main_v12 : IVec S_ 1 := (fun x v => Host.reduce IntOp.andi x v reducesTo_S4x16x2048_S_d0_1_2 h_S_) main_v11 main_c_3
  let main_v13 : IVec S_ 1 := andi main_v8 main_v12
  let main_v14 : FVec F S4x2048x16 .f32 := Host.absf main_arg3
  let main_cst_4 : FVec F S_ .f32 := constant S_ .f32 0x7F800000#32
  let main_v15 : FVec F S4x2048x16 .f32 := broadcastInDim S4x2048x16 ![] bcast_S_S4x2048x16 main_cst_4
  let main_v16 : IVec S4x2048x16 1 := cmpf .olt main_v14 main_v15
  fn_part1 (F := F) main_arg4 main_v13 main_v16
-- ==== Kernel.lean ====
abbrev S16384x2048 : Shape := ⟨2, ![16384, 2048]⟩
abbrev S2048x2048 : Shape := ⟨2, ![2048, 2048]⟩
abbrev S4x16x2048 : Shape := ⟨3, ![4, 16, 2048]⟩
abbrev S4x2048x16 : Shape := ⟨3, ![4, 2048, 16]⟩
abbrev S4 : Shape := ⟨1, ![4]⟩
abbrev S4x2048x2048 : Shape := ⟨3, ![4, 2048, 2048]⟩
abbrev S4x1x1 : Shape := ⟨3, ![4, 1, 1]⟩
abbrev S1x2048x2048 : Shape := ⟨3, ![1, 2048, 2048]⟩
abbrev S512x2048 : Shape := ⟨2, ![512, 2048]⟩

abbrev nBuf : Space → Nat
  | .hbm => 14
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S4x16x2048, .f32⟩
  | .hbm, ⟨3, _⟩ => ⟨S4x2048x16, .f32⟩
  | .hbm, ⟨4, _⟩ => ⟨S4, .f32⟩
  | .hbm, ⟨5, _⟩ => ⟨S4x2048x2048, .f32⟩
  | .hbm, ⟨6, _⟩ => ⟨S4x1x1, .f32⟩
  | .hbm, ⟨7, _⟩ => ⟨S4x2048x2048, .f32⟩
  | .hbm, ⟨8, _⟩ => ⟨S4x2048x2048, .f32⟩
  | .hbm, ⟨9, _⟩ => ⟨S1x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .bf16⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S4_S4x1x1_0 : S4.BroadcastsInDim S4x1x1 (![0] : Fin 1 → Fin S4x1x1.rank)
  bcast_S4x1x1_S4x2048x2048_0_1_2 : S4x1x1.BroadcastsInDim S4x2048x2048 (![0, 1, 2] : Fin 3 → Fin S4x2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  dot_S4x2048x16_S4x16x2048_S4x2048x2048_2_1_1_2_0_0_wf : DotDims.WF S4x2048x16 S4x16x2048 S4x2048x2048 [2] [1] [1] [2] [0] [0]
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S4x2048x2048.size a
  hwx0_1 : ∀ i : grid0.Coords, EltTy.bits .bf16 = 32 ∨ (Rect.block (s := S4x2048x2048) S1x2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def dot_S4x2048x16_S4x16x2048_S4x2048x2048_2_1_1_2_0_0 : DotDims S4x2048x16 S4x16x2048 S4x2048x2048 where
  lhsContracting := [2]
  rhsContracting := [1]
  lhsNonContracting := [1]
  rhsNonContracting := [2]
  lhsBatch := [0]
  rhsBatch := [0]
  wf := dot_S4x2048x16_S4x16x2048_S4x2048x2048_2_1_1_2_0_0_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S4x16x2048 : Shape := ⟨3, ![4, 16, 2048]⟩
abbrev S4x2048x16 : Shape := ⟨3, ![4, 2048, 16]⟩
abbrev S4 : Shape := ⟨1, ![4]⟩
abbrev S4x4096x2048 : Shape := ⟨3, ![4, 4096, 2048]⟩
abbrev S4x4096x16 : Shape := ⟨3, ![4, 4096, 16]⟩
abbrev S4x1x1 : Shape := ⟨3, ![4, 1, 1]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S4x16x2048, .f32⟩
  | .hbm, ⟨3, _⟩ => ⟨S4x2048x16, .f32⟩
  | .hbm, ⟨4, _⟩ => ⟨S4, .f32⟩
  | .hbm, ⟨5, _⟩ => ⟨S2048x2048, .f32⟩
  | .hbm, ⟨6, _⟩ => ⟨S16384x2048, .f32⟩
  | .hbm, ⟨7, _⟩ => ⟨S4x4096x2048, .f32⟩
  | .hbm, ⟨8, _⟩ => ⟨S4x4096x16, .f32⟩
  | .hbm, ⟨9, _⟩ => ⟨S4x4096x2048, .f32⟩
  | .hbm, ⟨10, _⟩ => ⟨S4x1x1, .f32⟩
  | .hbm, ⟨11, _⟩ => ⟨S4x4096x2048, .f32⟩
  | .hbm, ⟨12, _⟩ => ⟨S4x4096x2048, .f32⟩
  | .hbm, ⟨13, _⟩ => ⟨S16384x2048, .f32⟩
  | .hbm, ⟨14, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S2048x2048_S2048x2048_1_0 : S2048x2048.Transposes [1, 0] S2048x2048
  shapeCasts_S16384x2048_S4x4096x2048 : S16384x2048.ShapeCasts S4x4096x2048
  bcast_S4_S4x1x1_0 : S4.BroadcastsInDim S4x1x1 (![0] : Fin 1 → Fin S4x1x1.rank)
  bcast_S4x1x1_S4x4096x2048_0_1_2 : S4x1x1.BroadcastsInDim S4x4096x2048 (![0, 1, 2] : Fin 3 → Fin S4x4096x2048.rank)
  shapeCasts_S4x4096x2048_S16384x2048 : S4x4096x2048.ShapeCasts S16384x2048
  dot_S16384x2048_S2048x2048_S16384x2048_1_0_0_1_n_n_wf : DotDims.WF S16384x2048 S2048x2048 S16384x2048 [1] [0] [0] [1] [] []
  dot_S4x4096x2048_S4x16x2048_S4x4096x16_2_2_1_1_0_0_wf : DotDims.WF S4x4096x2048 S4x16x2048 S4x4096x16 [2] [2] [1] [1] [0] [0]
  dot_S4x4096x16_S4x2048x16_S4x4096x2048_2_2_1_1_0_0_wf : DotDims.WF S4x4096x16 S4x2048x16 S4x4096x2048 [2] [2] [1] [1] [0] [0]

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S4x4096x2048_S4x16x2048_S4x4096x16_2_2_1_1_0_0 : DotDims S4x4096x2048 S4x16x2048 S4x4096x16 where
  lhsContracting := [2]
  rhsContracting := [2]
  lhsNonContracting := [1]
  rhsNonContracting := [1]
  lhsBatch := [0]
  rhsBatch := [0]
  wf := dot_S4x4096x2048_S4x16x2048_S4x4096x16_2_2_1_1_0_0_wf
def dot_S4x4096x16_S4x2048x16_S4x4096x2048_2_2_1_1_0_0 : DotDims S4x4096x16 S4x2048x16 S4x4096x2048 where
  lhsContracting := [2]
  rhsContracting := [2]
  lhsNonContracting := [1]
  rhsNonContracting := [1]
  lhsBatch := [0]
  rhsBatch := [0]
  wf := dot_S4x4096x16_S4x2048x16_S4x4096x2048_2_2_1_1_0_0_wf

class Facts : Prop extends Facts₀ where

variable [Facts]
-- ==== Proof.Finite.lean ====
/-
  The precondition read back: every entry of every argument array is a real number.

  The printed predicate is the conjunction, over the five argument arrays, of "every entry has absolute value below
  +∞" (`jnp.all (|v| < inf)`, an and-reduction of an element-wise comparison against the pattern of +∞). On the
  extended reals `max v (-v) < ⊤` rules out both infinities, so each entry is the coercion of a real.
-/
import proofs.«405972_j73959336837249_3_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- The pattern `0x7F800000` denotes +∞. -/
theorem ofBits_inf : Ideal.ofBits .f32 0x7F800000#32 = (⊤ : EReal) := by
  simp [Ideal.ofBits, Ideal.ieee]

/-- An extended real whose absolute value compares below +∞ is a real number. -/
theorem real_of_abs_lt (v : EReal) (h : Ideal.cmp .olt (max v (-v)) (Ideal.ofBits .f32 0x7F800000#32) = 1#1) :
    ∃ r : ℝ, v = r := by
  rw [ofBits_inf] at h
  have hb : ∀ b : Bool, BitVec.ofBool b = 1#1 → b = true := fun b => by cases b <;> decide
  have h' : max v (-v) < ⊤ := of_decide_eq_true (hb _ h)
  induction v using EReal.rec with
  | bot => exact absurd h' (by simp)
  | coe r => exact ⟨r, rfl⟩
  | top => exact absurd h' (by simp)

/-- One array's conjunct: the and-reduction of `|v| < inf` being one makes every entry real. -/
theorem real_of_all {s : Shape} {axes : List (Fin s.rank)} (v : FVec Ideal s .f32) (hb : S_.BroadcastsInDim s (![] : Fin 0 → Fin s.rank))
    (hr : s.ReducesTo axes S_) (hu : 0 < S_.numel)
    (e : Host.reduce IntOp.andi (cmpf .olt (Host.absf v) (broadcastInDim s ![] hb (constant (F := Ideal) S_ .f32 0x7F800000#32)))
      (constantI S_ 1 1#1) hr hu ValueIdx.ix0 = 1#1) (i : s.Idx) : ∃ r : ℝ, v i = r :=
  real_of_abs_lt (v i) (Host.reduce_andi_all _ _ hr hu ValueIdx.ix0 e i)

variable [Cert.Pre_finite_inputs.Facts]

/-- The whole precondition: all five argument arrays hold real numbers. -/
theorem reals_of_pre (x : FVec Ideal S16384x2048 .f32) (w : FVec Ideal S2048x2048 .f32) (a : FVec Ideal S4x16x2048 .f32)
    (b : FVec Ideal S4x2048x16 .f32) (s : FVec Ideal S4 .f32)
    (h : Cert.Pre_finite_inputs.fn (F := Ideal) x w a b s = fun _ => 1#1) :
    (∀ i, ∃ r : ℝ, x i = r) ∧ (∀ i, ∃ r : ℝ, w i = r) ∧ (∀ i, ∃ r : ℝ, a i = r) ∧ (∀ i, ∃ r : ℝ, b i = r) ∧ (∀ i, ∃ r : ℝ, s i = r) := by
  have h0 := congrFun h ValueIdx.ix0
  dsimp only [Cert.Pre_finite_inputs.fn, Cert.Pre_finite_inputs.fn_part1, andi] at h0
  obtain ⟨h1, hs⟩ := IntOp.andi_eq_one.1 h0
  obtain ⟨h2, hb⟩ := IntOp.andi_eq_one.1 h1
  obtain ⟨h3, ha⟩ := IntOp.andi_eq_one.1 h2
  obtain ⟨hx, hw⟩ := IntOp.andi_eq_one.1 h3
  exact ⟨real_of_all x _ _ _ hx, real_of_all w _ _ _ hw, real_of_all a _ _ _ ha, real_of_all b _ _ _ hb, real_of_all s _ _ _ hs⟩

end Cert.Finite

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.MergeLaw.lean ====
/-
  Folding a low-rank update into the weight before the product, against adding the low-rank path after it.

  For one token row `x`, one output row `w` of the base weight, the adapter's factors `a` (rank × features) and `b` (one
  output row: rank entries) and its scale `s`, all finite:

      ∑ₖ xₖ · (wₖ + (∑ᵣ bᵣ · aᵣₖ) · s)  =  (∑ₖ xₖ · wₖ) + (∑ᵣ (∑ₖ xₖ · aᵣₖ) · bᵣ) · s.

  The left side multiplies by the merged weight; the right side is the base product plus the scaled two-step low-rank
  product. Over the reals this is distributivity and an exchange of the two finite sums. On the extended reals
  distributivity fails at infinities, so the entries are taken finite and the identity is proved on their real values.
-/
import Idealize.ShloMosaic.PureOps.Ideal

namespace Cert.MergeLaw

open scoped BigOperators

/-- The coercion of the reals into the extended reals commutes with a finite sum. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The identity over the reals: distribute `x k` over the sum inside the merged weight, pull the scale out, and
    exchange the sums over the rank and over the features. -/
theorem merged_eq_split_real {K R : Type} [Fintype K] [Fintype R] (x w : K → ℝ) (a : R → K → ℝ) (b : R → ℝ) (s : ℝ) :
    ∑ k, x k * (w k + (∑ r, b r * a r k) * s) = (∑ k, x k * w k) + (∑ r, (∑ k, x k * a r k) * b r) * s := by
  have h : ∀ k, x k * (w k + (∑ r, b r * a r k) * s) = x k * w k + ∑ r, x k * a r k * b r * s := fun k => by
    rw [mul_add, Finset.sum_mul, Finset.mul_sum]
    exact congrArg _ (Finset.sum_congr rfl fun r _ => by ring)
  simp only [h, Finset.sum_add_distrib]
  congr 1
  rw [Finset.sum_comm, Finset.sum_mul]
  exact Finset.sum_congr rfl fun r _ => by rw [Finset.sum_mul, Finset.sum_mul]

/-- The identity on the extended reals, for finite entries. -/
theorem merged_eq_split {K R : Type} [Fintype K] [Fintype R] (x w : K → EReal) (a : R → K → EReal) (b : R → EReal) (s : EReal)
    (hx : ∀ k, ∃ v : ℝ, x k = v) (hw : ∀ k, ∃ v : ℝ, w k = v) (ha : ∀ r k, ∃ v : ℝ, a r k = v) (hb : ∀ r, ∃ v : ℝ, b r = v)
    (hs : ∃ v : ℝ, s = v) :
    ∑ k, x k * (w k + (∑ r, b r * a r k) * s) = (∑ k, x k * w k) + (∑ r, (∑ k, x k * a r k) * b r) * s := by
  choose x' hx' using hx
  choose w' hw' using hw
  choose a' ha' using ha
  choose b' hb' using hb
  obtain ⟨s', rfl⟩ := hs
  simp only [hx', hw', ha', hb', ← EReal.coe_mul, ← coe_sum, ← EReal.coe_add]
  exact congrArg _ (merged_eq_split_real x' w' a' b' s')

end Cert.MergeLaw
-- ==== Proof.Spec.lean ====
/-
  The result as ONE function of the argument arrays, index by index, in the two arrangements the programs compute.

  Tokens are split into four contiguous segments of 4096 rows, one adapter each: row `t` uses adapter `t / 4096`.
  With `x` the tokens (16384 × 2048), `w` the base weight (out × in), `a` (adapter × rank × in) and `b`
  (adapter × out × rank) the low-rank factors and `s` the per-adapter scale:

  * `merged`: the row times the adapter's MERGED weight, `w[o,k] + (∑ᵣ b[g,o,r] · a[g,r,k]) · s[g]`;
  * `split`: the base product `∑ₖ x[t,k] · w[o,k]` plus the scaled two-step low-rank product
    `(∑ᵣ (∑ₖ x[t,k] · a[g,r,k]) · b[g,o,r]) · s[g]`.

  For finite entries the two agree (`split_eq_merged`), by the law of MergeLaw.lean at each output index.
-/
import proofs.«405972_j73959336837249_3_alg».proof.Proof.MergeLaw
import Idealize.ShloMosaic.Lib.ValueIdx

noncomputable section

namespace Cert.Lora

open Idealize.ShloMosaic Idealize.ShloMosaic.ValueIdx
open scoped BigOperators

abbrev SX : Shape := ⟨2, ![16384, 2048]⟩
abbrev SW : Shape := ⟨2, ![2048, 2048]⟩
abbrev SA : Shape := ⟨3, ![4, 16, 2048]⟩
abbrev SB : Shape := ⟨3, ![4, 2048, 16]⟩
abbrev SS : Shape := ⟨1, ![4]⟩

/-- The adapter of token row `t`: segments of 4096 rows. -/
def seg (t : Fin 16384) : Fin 4 := ⟨t.val / 4096, by have := t.isLt; omega⟩

/-- The merged weight of adapter `g` at (out `o`, in `k`). -/
def mergedW (w : SW.Idx → EReal) (a : SA.Idx → EReal) (b : SB.Idx → EReal) (s : SS.Idx → EReal) (g : Fin 4) (o k : Fin 2048) : EReal :=
  w (ix2 o k) + (∑ r : Fin 16, b (ix3 g o r) * a (ix3 g r k)) * s (ix1 g)

/-- Row `t`, column `o` of the result as the kernel computes it: the row against its adapter's merged weight. -/
def mergedAt (x : SX.Idx → EReal) (w : SW.Idx → EReal) (a : SA.Idx → EReal) (b : SB.Idx → EReal) (s : SS.Idx → EReal)
    (t : Fin 16384) (o : Fin 2048) : EReal :=
  ∑ k : Fin 2048, x (ix2 t k) * mergedW w a b s (seg t) o k

/-- The same entry as the reference computes it: base product plus scaled low-rank path. -/
def splitAt (x : SX.Idx → EReal) (w : SW.Idx → EReal) (a : SA.Idx → EReal) (b : SB.Idx → EReal) (s : SS.Idx → EReal)
    (t : Fin 16384) (o : Fin 2048) : EReal :=
  (∑ k : Fin 2048, x (ix2 t k) * w (ix2 o k))
    + (∑ r : Fin 16, (∑ k : Fin 2048, x (ix2 t k) * a (ix3 (seg t) r k)) * b (ix3 (seg t) o r)) * s (ix1 (seg t))

/-- The whole result array, the kernel's arrangement. -/
def merged (x : SX.Idx → EReal) (w : SW.Idx → EReal) (a : SA.Idx → EReal) (b : SB.Idx → EReal) (s : SS.Idx → EReal) : SX.Idx → EReal :=
  fun i => mergedAt x w a b s (i 0) (i 1)

/-- The whole result array, the reference's arrangement. -/
def split (x : SX.Idx → EReal) (w : SW.Idx → EReal) (a : SA.Idx → EReal) (b : SB.Idx → EReal) (s : SS.Idx → EReal) : SX.Idx → EReal :=
  fun i => splitAt x w a b s (i 0) (i 1)

/-- For finite entries the two arrangements are one function. -/
theorem split_eq_merged (x : SX.Idx → EReal) (w : SW.Idx → EReal) (a : SA.Idx → EReal) (b : SB.Idx → EReal) (s : SS.Idx → EReal)
    (hx : ∀ i, ∃ v : ℝ, x i = v) (hw : ∀ i, ∃ v : ℝ, w i = v) (ha : ∀ i, ∃ v : ℝ, a i = v) (hb : ∀ i, ∃ v : ℝ, b i = v)
    (hs : ∀ i, ∃ v : ℝ, s i = v) : split x w a b s = merged x w a b s := by
  funext i
  exact (MergeLaw.merged_eq_split (fun k : Fin 2048 => x (ix2 (i 0) k)) (fun k => w (ix2 (i 1) k))
    (fun (r : Fin 16) k => a (ix3 (seg (i 0)) r k)) (fun r => b (ix3 (seg (i 0)) (i 1) r)) (s (ix1 (seg (i 0))))
    (fun k => hx _) (fun k => hw _) (fun r k => ha _) (fun r => hb _) (hs _)).symm

end Cert.Lora

end
-- ==== Proof.KernelRead.lean ====
/-
  The kernel's two computations, each read at one index.

  * The body multiplies a tile of 512 token rows by one adapter's weight slab, contracting the feature axis of both:
    entry (p, q) of the tile's result is `∑ₖ x[p,k] · slab[0,q,k]` (`body_apply`).
  * Before the region the host operations build the merged weights: the base weight repeated for the four adapters,
    plus the product of the low-rank factors scaled per adapter; entry (g, o, k) is
    `w[o,k] + (∑ᵣ b[g,o,r] · a[g,r,k]) · s[g]` (`mergedArr_apply`). The narrowing to bf16 is the identity on the
    extended reals.
-/
import proofs.«405972_j73959336837249_3_alg».proof.Proof.Gen.KernelIdeal.Skeleton
import proofs.«405972_j73959336837249_3_alg».proof.Proof.LibOneAxisContraction
import proofs.«405972_j73959336837249_3_alg».proof.Proof.Spec
import Idealize.ShloMosaic.Lib.Pipeline.Value
import Idealize.ShloMosaic.Lib.ValueIdx
import Idealize.ShloMosaic.PureOps.Ideal.Laws

noncomputable section

namespace Cert.Lora.KernelRead

open Cert.KernelIdeal Cert.KernelIdeal.Gen Idealize.ShloMosaic Idealize.ShloMosaic.ValueIdx Cert.Lora
open scoped BigOperators

/-! ## The body's contraction: which operand entries meet at result index `i` and position `q` -/

theorem lhs_body_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_body_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_body_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_body_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The slab, a [1, 2048, 2048] block, viewed as a matrix: entry (q, k) is the block's (0, q, k). -/
theorem slab_apply (x1 : FVec Ideal S1x2048x2048 .bf16) (q k : Fin 2048) :
    shapeCast S2048x2048 x1 shapeCasts_S1x2048x2048_S2048x2048 (ix2 q k) = x1 (ix3 (0 : Fin 1) q k) :=
  shapeCast_apply x1 shapeCasts_S1x2048x2048_S2048x2048 (ix2 q k) (ix3 (0 : Fin 1) q k)
    (by rw [Shape.rowMajor_val_three, Shape.rowMajor_val_two]
        show ((0 : Nat) * 2048 + q.val) * 2048 + k.val = q.val * 2048 + k.val
        omega)

/-- THE BODY at (p, q): the tile's row `p` against the slab's row `q`, summed over the features. -/
theorem body_apply (x0 : FVec Ideal S512x2048 .f32) (x1 : FVec Ideal S1x2048x2048 .bf16) (p : Fin 512) (q : Fin 2048) :
    k0_pay1 (F := Ideal) x0 x1 (ix2 p q) = ∑ k : Fin 2048, x0 (ix2 p k) * x1 (ix3 (0 : Fin 1) q k) := by
  unfold k0_pay1
  refine (Cert.Dots.matmul_zero_apply_of dot_S512x2048_S2048x2048_S512x2048_1_1_0_0_n_n 2048 rfl rfl none _ _ (ix2 p q)
    (fun k => ix2 p k) (fun k => ix2 q k) ?_ ?_).trans ?_
  · intro k
    have hk := contrEquiv1_symm_val dot_S512x2048_S2048x2048_S512x2048_1_1_0_0_n_n 2048 rfl rfl k
    exact funext fun a => Fin.ext (by
      match a with
      | ⟨0, _⟩ => exact lhs_body_0 _ _
      | ⟨1, _⟩ => exact (lhs_body_1 _ _).trans hk)
  · intro k
    have hk := contrEquiv1_symm_val dot_S512x2048_S2048x2048_S512x2048_1_1_0_0_n_n 2048 rfl rfl k
    exact funext fun a => Fin.ext (by
      match a with
      | ⟨0, _⟩ => exact rhs_body_0 _ _
      | ⟨1, _⟩ => exact (rhs_body_1 _ _).trans hk)
  · exact Finset.sum_congr rfl fun k _ => congrArg (x0 (ix2 p k) * ·) (slab_apply x1 q k)

/-! ## The host operations before the region: the merged weights -/

theorem lhs_lowrank_0 (i : S4x2048x2048.Idx) (q : dot_S4x2048x16_S4x16x2048_S4x2048x2048_2_1_1_2_0_0.contr.Idx) :
    (dot_S4x2048x16_S4x16x2048_S4x2048x2048_2_1_1_2_0_0.lhsIdx i q 0).val = (i 0).val := by
  unfold DotDims.lhsIdx
  rw [dif_pos (show (0 : Fin S4x2048x16.rank) ∈ dot_S4x2048x16_S4x16x2048_S4x2048x2048_2_1_1_2_0_0.lhsBatch by decide)]
  rfl
theorem lhs_lowrank_1 (i : S4x2048x2048.Idx) (q : dot_S4x2048x16_S4x16x2048_S4x2048x2048_2_1_1_2_0_0.contr.Idx) :
    (dot_S4x2048x16_S4x16x2048_S4x2048x2048_2_1_1_2_0_0.lhsIdx i q 1).val = (i 1).val := by
  unfold DotDims.lhsIdx
  rw [dif_neg (show ¬(1 : Fin S4x2048x16.rank) ∈ dot_S4x2048x16_S4x16x2048_S4x2048x2048_2_1_1_2_0_0.lhsBatch by decide), dif_pos (show (1 : Fin S4x2048x16.rank) ∈ dot_S4x2048x16_S4x16x2048_S4x2048x2048_2_1_1_2_0_0.lhsNonContracting by decide)]
  rfl
theorem lhs_lowrank_2 (i : S4x2048x2048.Idx) (q : dot_S4x2048x16_S4x16x2048_S4x2048x2048_2_1_1_2_0_0.contr.Idx) :
    (dot_S4x2048x16_S4x16x2048_S4x2048x2048_2_1_1_2_0_0.lhsIdx i q 2).val = (q ⟨0, by decide⟩).val :=
  dot_S4x2048x16_S4x16x2048_S4x2048x2048_2_1_1_2_0_0.lhsIdx_val_of_single rfl i q
theorem rhs_lowrank_0 (i : S4x2048x2048.Idx) (q : dot_S4x2048x16_S4x16x2048_S4x2048x2048_2_1_1_2_0_0.contr.Idx) :
    (dot_S4x2048x16_S4x16x2048_S4x2048x2048_2_1_1_2_0_0.rhsIdx i q 0).val = (i 0).val := by
  unfold DotDims.rhsIdx
  rw [dif_pos (show (0 : Fin S4x16x2048.rank) ∈ dot_S4x2048x16_S4x16x2048_S4x2048x2048_2_1_1_2_0_0.rhsBatch by decide)]
  rfl
theorem rhs_lowrank_1 (i : S4x2048x2048.Idx) (q : dot_S4x2048x16_S4x16x2048_S4x2048x2048_2_1_1_2_0_0.contr.Idx) :
    (dot_S4x2048x16_S4x16x2048_S4x2048x2048_2_1_1_2_0_0.rhsIdx i q 1).val = (q ⟨0, by decide⟩).val :=
  dot_S4x2048x16_S4x16x2048_S4x2048x2048_2_1_1_2_0_0.rhsIdx_val_of_single rfl i q
theorem rhs_lowrank_2 (i : S4x2048x2048.Idx) (q : dot_S4x2048x16_S4x16x2048_S4x2048x2048_2_1_1_2_0_0.contr.Idx) :
    (dot_S4x2048x16_S4x16x2048_S4x2048x2048_2_1_1_2_0_0.rhsIdx i q 2).val = (i 2).val := by
  unfold DotDims.rhsIdx
  rw [dif_neg (show ¬(2 : Fin S4x16x2048.rank) ∈ dot_S4x2048x16_S4x16x2048_S4x2048x2048_2_1_1_2_0_0.rhsBatch by decide), dif_pos (show (2 : Fin S4x16x2048.rank) ∈ dot_S4x2048x16_S4x16x2048_S4x2048x2048_2_1_1_2_0_0.rhsNonContracting by decide)]
  rfl

/-- The product of the low-rank factors at (g, o, k): the sum over the rank. -/
theorem lowrank_apply (b : FVec Ideal S4x2048x16 .f32) (a : FVec Ideal S4x16x2048 .f32) (g : Fin 4) (o k : Fin 2048) :
    Host.dotGeneral dot_S4x2048x16_S4x16x2048_S4x2048x2048_2_1_1_2_0_0 none b a (ix3 g o k) = ∑ r : Fin 16, b (ix3 g o r) * a (ix3 g r k) := by
  simp only [Host.dotGeneral]
  refine Cert.Dots.dotGeneral_apply_of dot_S4x2048x16_S4x16x2048_S4x2048x2048_2_1_1_2_0_0 16 rfl rfl _ _ b a (ix3 g o k)
    (fun r => ix3 g o r) (fun r => ix3 g r k) ?_ ?_
  · intro r
    have hr := contrEquiv1_symm_val dot_S4x2048x16_S4x16x2048_S4x2048x2048_2_1_1_2_0_0 16 rfl rfl r
    exact funext fun c => Fin.ext (by
      match c with
      | ⟨0, _⟩ => exact lhs_lowrank_0 _ _
      | ⟨1, _⟩ => exact lhs_lowrank_1 _ _
      | ⟨2, _⟩ => exact (lhs_lowrank_2 _ _).trans hr)
  · intro r
    have hr := contrEquiv1_symm_val dot_S4x2048x16_S4x16x2048_S4x2048x2048_2_1_1_2_0_0 16 rfl rfl r
    exact funext fun c => Fin.ext (by
      match c with
      | ⟨0, _⟩ => exact rhs_lowrank_0 _ _
      | ⟨1, _⟩ => exact (rhs_lowrank_1 _ _).trans hr
      | ⟨2, _⟩ => exact rhs_lowrank_2 _ _)

/-- The base weight repeated for every adapter: entry (g, o, k) is `w[o,k]`. -/
theorem baseRep_apply (w : FVec Ideal S2048x2048 .f32) (g : Fin 4) (o k : Fin 2048) :
    broadcastInDim S4x2048x2048 ![0, 1, 2] bcast_S1x2048x2048_S4x2048x2048_0_1_2
      (broadcastInDim S1x2048x2048 ![1, 2] bcast_S2048x2048_S1x2048x2048_1_2 w) (ix3 g o k) = w (ix2 o k) := by
  rw [broadcastInDim_apply _ bcast_S1x2048x2048_S4x2048x2048_0_1_2 _ (ix3 g o k) (ix3 (0 : Fin 1) o k) (fun c => match c with
    | ⟨0, _⟩ => by show (0 : Nat) = if (1 : Nat) = 1 then 0 else g.val; rw [if_pos rfl]
    | ⟨1, _⟩ => by show o.val = if (2048 : Nat) = 1 then 0 else o.val; rw [if_neg (by decide)]
    | ⟨2, _⟩ => by show k.val = if (2048 : Nat) = 1 then 0 else k.val; rw [if_neg (by decide)])]
  exact broadcastInDim_apply _ bcast_S2048x2048_S1x2048x2048_1_2 w (ix3 (0 : Fin 1) o k) (ix2 o k) (fun c => match c with
    | ⟨0, _⟩ => by show o.val = if (2048 : Nat) = 1 then 0 else o.val; rw [if_neg (by decide)]
    | ⟨1, _⟩ => by show k.val = if (2048 : Nat) = 1 then 0 else k.val; rw [if_neg (by decide)])

/-- The scales repeated over an adapter's whole weight: entry (g, o, k) is `s[g]`. -/
theorem scaleRep_apply (s : FVec Ideal S4 .f32) (g : Fin 4) (o k : Fin 2048) :
    broadcastInDim S4x2048x2048 ![0, 1, 2] bcast_S4x1x1_S4x2048x2048_0_1_2
      (broadcastInDim S4x1x1 ![0] bcast_S4_S4x1x1_0 s) (ix3 g o k) = s (ix1 g) := by
  rw [broadcastInDim_apply _ bcast_S4x1x1_S4x2048x2048_0_1_2 _ (ix3 g o k) (ix3 g (0 : Fin 1) (0 : Fin 1)) (fun c => match c with
    | ⟨0, _⟩ => by show g.val = if (4 : Nat) = 1 then 0 else g.val; rw [if_neg (by decide)]
    | ⟨1, _⟩ => by show (0 : Nat) = if (1 : Nat) = 1 then 0 else o.val; rw [if_pos rfl]
    | ⟨2, _⟩ => by show (0 : Nat) = if (1 : Nat) = 1 then 0 else k.val; rw [if_pos rfl])]
  exact broadcastInDim_apply _ bcast_S4_S4x1x1_0 s (ix3 g (0 : Fin 1) (0 : Fin 1)) (ix1 g) (fun c => match c with
    | ⟨0, _⟩ => by show g.val = if (4 : Nat) = 1 then 0 else g.val; rw [if_neg (by decide)])

/-- The merged weights as the host operations before the region compute them, from the argument arrays. -/
def mergedArr (w : FVec Ideal S2048x2048 .f32) (a : FVec Ideal S4x16x2048 .f32) (b : FVec Ideal S4x2048x16 .f32)
    (s : FVec Ideal S4 .f32) : FVec Ideal S4x2048x2048 .bf16 :=
  truncf .bf16 (addf
    (broadcastInDim S4x2048x2048 ![0, 1, 2] bcast_S1x2048x2048_S4x2048x2048_0_1_2
      (broadcastInDim S1x2048x2048 ![1, 2] bcast_S2048x2048_S1x2048x2048_1_2 w))
    (mulf (Host.dotGeneral dot_S4x2048x16_S4x16x2048_S4x2048x2048_2_1_1_2_0_0 none b a)
      (broadcastInDim S4x2048x2048 ![0, 1, 2] bcast_S4x1x1_S4x2048x2048_0_1_2
        (broadcastInDim S4x1x1 ![0] bcast_S4_S4x1x1_0 s)))) bitsLt_bf16_f32

/-- THE MERGED WEIGHTS at (g, o, k). -/
theorem mergedArr_apply (w : FVec Ideal S2048x2048 .f32) (a : FVec Ideal S4x16x2048 .f32) (b : FVec Ideal S4x2048x16 .f32)
    (s : FVec Ideal S4 .f32) (g : Fin 4) (o k : Fin 2048) :
    mergedArr w a b s (ix3 g o k) = mergedW w a b s g o k := by
  unfold mergedArr mergedW
  rw [truncf_apply, addf_apply, mulf_apply, baseRep_apply, lowrank_apply, scaleRep_apply]

end Cert.Lora.KernelRead

end
-- ==== Proof.KernelValue.lean ====
/-
  The kernel's result array as ONE function of the argument arrays: `merged` of the specification.

  The grid has 32 points. Point `t` stages token rows `512·t … 512·t + 511` (all 2048 features), the merged-weight
  slab of adapter `t / 8`, and writes result rows `512·t … 512·t + 511`. Since `(512·t + p) / 4096 = t / 8` for
  `p < 512`, the slab a tile meets is its rows' own adapter's, so what point `t` writes back is block `t` of `merged`;
  the 32 blocks tile the array, so the array ends holding `merged` of the arguments.
-/
import proofs.«405972_j73959336837249_3_alg».proof.Proof.Gen.KernelIdeal.Value
import proofs.«405972_j73959336837249_3_alg».proof.Proof.KernelRead
import Idealize.ShloMosaic.Lib.StableHlo.Run

noncomputable section

namespace Cert.Lora.KernelValue

open Cert.KernelIdeal Cert.KernelIdeal.Gen Idealize.ShloMosaic Idealize.ShloMosaic.TcCoe Idealize.SL.Sem
open Idealize.ShloMosaic.ValueIdx Idealize.ShloMosaic.StableHlo Cert.Lora Cert.Lora.KernelRead
open Idealize.ShloMosaic.Pipeline (Dat)
open scoped BigOperators

variable (m : (ℓ : Loc nD τ sig) → Buf (Elt Ideal) ℓ) (ρ : Dev nD → PrngReg)

/-! ## The arrays the region finds, and the blocks a point stages, at their literal types -/

/-- The tokens as the region finds them. -/
abbrev xarr (c : Dev nD) : FVec Ideal S16384x2048 .f32 := V m c main_arg0
/-- The merged weights as the region finds them (the host operations before it wrote them). -/
abbrev wmarr (c : Dev nD) : FVec Ideal S4x2048x2048 .bf16 := V m c main_v7
/-- The token tile point `t` stages. -/
abbrev xblk (c : Dev nD) (t : Fin cfg0.N) : FVec Ideal S512x2048 .f32 := iblk m c 0 t
/-- The weight slab point `t` stages. -/
abbrev wblk (c : Dev nD) (t : Fin cfg0.N) : FVec Ideal S1x2048x2048 .bf16 := iblk m c 1 t

/-- The argument arrays, as launched. -/
abbrev argX (c : Dev nD) : FVec Ideal S16384x2048 .f32 := m ((c : Thread nD τ).loc main_arg0)
abbrev argW (c : Dev nD) : FVec Ideal S2048x2048 .f32 := m ((c : Thread nD τ).loc main_arg1)
abbrev argA (c : Dev nD) : FVec Ideal S4x16x2048 .f32 := m ((c : Thread nD τ).loc main_arg2)
abbrev argB (c : Dev nD) : FVec Ideal S4x2048x16 .f32 := m ((c : Thread nD τ).loc main_arg3)
abbrev argS (c : Dev nD) : FVec Ideal S4 .f32 := m ((c : Thread nD τ).loc main_arg4)

theorem xarr_eq (c : Dev nD) : xarr m c = argX m c := V_main_arg0 m c

/-- The merged-weight array is the host operations' term of the argument arrays. -/
theorem wmarr_eq (c : Dev nD) : wmarr m c = mergedArr (argW m c) (argA m c) (argB m c) (argS m c) := by
  show (V m c main_v7 : S4x2048x2048.Idx → EReal) = _
  dsimp only [Gen.V, Gen.hostOps0]
  after_results
  rfl

/-! ## The grid's index maps -/

theorem lt32 (t : Fin cfg0.N) : t.val < 32 := N_0 ▸ t.isLt

/-- Decided over the 32 points: the token and result windows sit at block row `t`, the weight window at slab `t / 8`. -/
theorem idx_facts : ∀ t : Fin cfg0.N,
    win0_0.index t (0 : Fin 2) = t.val ∧ win0_0.index t (1 : Fin 2) = 0
    ∧ win0_1.index t (0 : Fin 3) = t.val / 8 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Row `p` of point `t`'s tile is token row `512·t + p`. -/
def row (t : Fin cfg0.N) (p : Fin 512) : Fin 16384 := ⟨t.val * 512 + p.val, by have := lt32 t; have := p.isLt; omega⟩
/-- The slab point `t` stages: adapter `t / 8`. -/
def slab (t : Fin cfg0.N) : Fin 4 := ⟨t.val / 8, by have := lt32 t; omega⟩

theorem seg_row (t : Fin cfg0.N) (p : Fin 512) : seg (row t p) = slab t :=
  Fin.ext (by show (t.val * 512 + p.val) / 4096 = t.val / 8; have := lt32 t; have := p.isLt; omega)

/-- An entry of the staged token tile is an entry of the token array. -/
theorem xblk_apply (c : Dev nD) (t : Fin cfg0.N) (p : Fin 512) (k : Fin 2048) :
    xblk m c t (ix2 p k) = xarr m c (ix2 (row t p) k) := by
  obtain ⟨e0, e1, -, -, -, -, -⟩ := idx_facts t
  show V m c main_arg0 (((cfg0.win 0).blk t).view.emb (ix2 p k)) = V m c main_arg0 (ix2 (row t p) k)
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 2048 + 1 * k.val = k.val; omega

/-- An entry of the staged slab is an entry of the merged-weight array, at adapter `t / 8`. -/
theorem wblk_apply (c : Dev nD) (t : Fin cfg0.N) (q k : Fin 2048) :
    wblk m c t (ix3 (0 : Fin 1) q k) = wmarr m c (ix3 (slab t) q k) := by
  obtain ⟨-, -, e2, e3, e4, -, -⟩ := idx_facts t
  show V m c main_v7 (((cfg0.win 1).blk t).view.emb (ix3 (0 : Fin 1) q k)) = V m c main_v7 (ix3 (slab t) q k)
  refine congrArg _ (funext fun a => Fin.ext ?_)
  match a with
  | ⟨0, _⟩ => show win0_1.index t (0 : Fin 3) * 1 + 1 * 0 = t.val / 8; omega
  | ⟨1, _⟩ => show win0_1.index t (1 : Fin 3) * 2048 + 1 * q.val = q.val; omega
  | ⟨2, _⟩ => show win0_1.index t (2 : Fin 3) * 2048 + 1 * k.val = k.val; omega

/-- Entry (p, q) of point `t`'s result block sits at (512·t + p, q) of the result array. -/
theorem oblk_emb (t : Fin cfg0.N) (p : Fin 512) (q : Fin 2048) :
    ((cfg0.win 2).blk t).view.emb (ix2 p q) = ix2 (row t p) q := by
  obtain ⟨-, -, -, -, -, e5, e6⟩ := idx_facts t
  refine funext fun a => Fin.ext ?_
  match a with
  | ⟨0, _⟩ => show win0_2.index t (0 : Fin 2) * 512 + 1 * p.val = t.val * 512 + p.val; omega
  | ⟨1, _⟩ => show win0_2.index t (1 : Fin 2) * 2048 + 1 * q.val = q.val; omega

/-! ## What a point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- The result as one function of the argument arrays. -/
abbrev result (c : Dev nD) : FVec Ideal S16384x2048 .f32 :=
  merged (argX m c) (argW m c) (argA m c) (argB m c) (argS m c)

/-- WHAT POINT `t` WRITES BACK is block `t` of `merged` of the argument arrays. -/
theorem flushed_eq (c : Dev nD) (t : Fin cfg0.N) :
    (dats m 0 c).flushed 2 t = ((cfg0.win 2).blk t).view.read (Elt Ideal) (result m c) := by
  rw [Cert.KernelIdeal.Value.flushed2]
  unfold out0_2
  rw [View.canon_unit_zero hz2]
  simp only [View.ld_unit_zero (S := S512x2048) hz2, View.ld_unit_zero (S := S1x2048x2048) hz3]
  funext j
  obtain ⟨p, q, rfl⟩ : ∃ (p : Fin 512) (q : Fin 2048), j = ix2 p q := ⟨j 0, j 1, eq_ix2 j⟩
  show k0_pay1 (F := Ideal) (xblk m c t) (wblk m c t) (ix2 p q) = result m c (((cfg0.win 2).blk t).view.emb (ix2 p q))
  rw [oblk_emb]
  refine (body_apply (xblk m c t) (wblk m c t) p q).trans ?_
  show _ = mergedAt (argX m c) (argW m c) (argA m c) (argB m c) (argS m c) (row t p) q
  unfold mergedAt
  refine Finset.sum_congr rfl fun k _ => ?_
  rw [xblk_apply, wblk_apply, xarr_eq, wmarr_eq, mergedArr_apply, seg_row]

/-! ## The blocks tile the array -/

theorem mem_blk (t : Fin cfg0.N) (i : S16384x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v8).slice (win0_2.rect t)).set ↔ _
  rw [View.set_slice_whole, Rect.mem_set_unit]
  exact Iff.rfl

/-- Row `r` of the result is in the block of point `r / 512`. -/
theorem cover (i : S16384x2048.Idx) :
    ∃ t : Fin cfg0.N, (cfg0.win 2).flush t = true ∧ i ∈ ((cfg0.win 2).blk t).view.set := by
  have h0 : (i 0).val < 16384 := (i 0).isLt
  have h1 : (i 1).val < 2048 := (i 1).isLt
  have hN : (i 0).val / 512 < cfg0.N := by rw [show cfg0.N = 32 from N_0]; omega
  refine ⟨⟨(i 0).val / 512, hN⟩, flush0_2 _, ?_⟩
  obtain ⟨-, -, -, -, -, e5, e6⟩ := idx_facts ⟨(i 0).val / 512, hN⟩
  rw [mem_blk]
  intro a
  match a with
  | ⟨0, _⟩ =>
    show win0_2.index ⟨(i 0).val / 512, hN⟩ (0 : Fin 2) * 512 ≤ (i 0).val ∧ (i 0).val < win0_2.index ⟨(i 0).val / 512, hN⟩ (0 : Fin 2) * 512 + 512
    rw [e5]; show (i 0).val / 512 * 512 ≤ (i 0).val ∧ (i 0).val < (i 0).val / 512 * 512 + 512; omega
  | ⟨1, _⟩ =>
    show win0_2.index ⟨(i 0).val / 512, hN⟩ (1 : Fin 2) * 2048 ≤ (i 1).val ∧ (i 1).val < win0_2.index ⟨(i 0).val / 512, hN⟩ (1 : Fin 2) * 2048 + 2048
    rw [e6]; omega

/-- THE RESULT ARRAY after the run is `merged` of the argument arrays. -/
theorem final (c : Dev nD) : (dats m 0 c).arrAt 2 cfg0.N = result m c :=
  (dats m 0 c).arrAt_eq_of_cover 2 (result m c) (fun t _ => flushed_eq m c t) cover

/-! ## The run, read -/

/-- Every weakly fair execution of the kernel's program ends with the result array at `merged` of the argument arrays,
    the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Lora.KernelValue

end
-- ==== Proof.RefRead.lean ====
/-
  The reference's result, read one operation at a time, is the `split` arrangement of the specification.

  The reference reshapes the 16384 token rows into 4 segments of 4096 and back. Row `t`, column `o` of the flat
  result sits at flat position `t · 2048 + o`, which in the segmented array is (t / 4096, t % 4096, o): so every
  operand index the generated read-at-an-index lemmas compose lands on row `t` of the tokens and on adapter
  `t / 4096` of the factors and the scales. The equations below say so coordinate by coordinate; the rest is the
  generated lemmas applied outermost first.
-/
import proofs.«405972_j73959336837249_3_alg».proof.Proof.Gen.ReferenceIdeal.Read
import proofs.«405972_j73959336837249_3_alg».proof.Proof.Spec

noncomputable section

namespace Cert.Lora.RefRead

open Cert.ReferenceIdeal Cert.ReferenceIdeal.Gen Cert.ReferenceIdeal.Read Idealize.ShloMosaic Idealize.ShloMosaic.ValueIdx Cert.Lora
open scoped BigOperators

variable (t : Fin 16384) (o : Fin 2048)

/-- The base product's left operand: row `t` of the tokens. -/
theorem base_lhs (k : Fin 2048) : lidx_main_v1 (ix2 t o) k = ix2 t k :=
  funext fun c => Fin.ext (by match c with | ⟨0, _⟩ => rfl | ⟨1, _⟩ => rfl)

/-- The base product's right operand, through the transpose: row `o` of the weight. -/
theorem base_rhs (k : Fin 2048) : idx_main_v0 (ridx_main_v1 (ix2 t o) k) = ix2 o k :=
  funext fun c => Fin.ext (by match c with | ⟨0, _⟩ => rfl | ⟨1, _⟩ => rfl)

/-- The low-rank path's tokens, through both reshapes: row `t` again. -/
theorem low_tok (r : Fin 16) (k : Fin 2048) :
    idx_main_v2 (lidx_main_v3 (lidx_main_v4 (idx_main_v8 (ix2 t o)) r) k) = ix2 t k :=
  funext fun c => Fin.ext (by
    have ht : t.val < 16384 := t.isLt
    have ho : o.val < 2048 := o.isLt
    have hk : k.val < 2048 := k.isLt
    match c with
    | ⟨0, _⟩ =>
      show (((t.val * 2048 + o.val) / 8388608 * 4096 + (t.val * 2048 + o.val) / 2048 % 4096) * 2048 + k.val) / 2048 = t.val
      omega
    | ⟨1, _⟩ =>
      show (((t.val * 2048 + o.val) / 8388608 * 4096 + (t.val * 2048 + o.val) / 2048 % 4096) * 2048 + k.val) % 2048 = k.val
      omega)

/-- The first factor's entry: adapter `t / 4096`, rank `r`, feature `k`. -/
theorem low_a (r : Fin 16) (k : Fin 2048) :
    ridx_main_v3 (lidx_main_v4 (idx_main_v8 (ix2 t o)) r) k = ix3 (seg t) r k :=
  funext fun c => Fin.ext (by
    have ht : t.val < 16384 := t.isLt
    have ho : o.val < 2048 := o.isLt
    match c with
    | ⟨0, _⟩ => show (t.val * 2048 + o.val) / 8388608 = t.val / 4096; omega
    | ⟨1, _⟩ => rfl
    | ⟨2, _⟩ => rfl)

/-- The second factor's entry: adapter `t / 4096`, output `o`, rank `r`. -/
theorem low_b (r : Fin 16) : ridx_main_v4 (idx_main_v8 (ix2 t o)) r = ix3 (seg t) o r :=
  funext fun c => Fin.ext (by
    have ht : t.val < 16384 := t.isLt
    have ho : o.val < 2048 := o.isLt
    match c with
    | ⟨0, _⟩ => show (t.val * 2048 + o.val) / 8388608 = t.val / 4096; omega
    | ⟨1, _⟩ => show (t.val * 2048 + o.val) % 2048 = o.val; omega
    | ⟨2, _⟩ => rfl)

/-- The scale's entry: adapter `t / 4096`. -/
theorem low_s : idx_main_v5 (idx_main_v6 (idx_main_v8 (ix2 t o))) = ix1 (seg t) :=
  funext fun c => Fin.ext (by
    have ht : t.val < 16384 := t.isLt
    have ho : o.val < 2048 := o.isLt
    match c with
    | ⟨0, _⟩ => show (t.val * 2048 + o.val) / 8388608 = t.val / 4096; omega)

/-- THE REFERENCE's result stage is `split` of the argument arrays. -/
theorem ref_eq_split (x : FVec Ideal S16384x2048 .f32) (w : FVec Ideal S2048x2048 .f32) (a : FVec Ideal S4x16x2048 .f32)
    (b : FVec Ideal S4x2048x16 .f32) (s : FVec Ideal S4 .f32) :
    val_main_v9 (F := Ideal) x w a b s = split x w a b s := by
  funext i
  obtain ⟨t, o, rfl⟩ : ∃ (t : Fin 16384) (o : Fin 2048), i = ix2 t o := ⟨i 0, i 1, eq_ix2 i⟩
  show _ = splitAt x w a b s t o
  unfold splitAt
  simp only [val_main_v9_apply, val_main_v1_apply, val_main_v0_apply, val_main_v8_apply, val_main_v7_apply, val_main_v4_apply,
    val_main_v3_apply, val_main_v2_apply, val_main_v6_apply, val_main_v5_apply, Ideal.addf_def, Ideal.mulf_def,
    base_lhs, base_rhs, low_tok, low_a, low_b, low_s]

end Cert.Lora.RefRead

end
-- ==== Proof.lean ====
/-
  A grouped LoRA linear layer: 16384 token rows in four segments of 4096, each segment with its own rank-16 adapter.

  The kernel first folds every adapter into the base weight on the host, `Wm[g] = W + (B[g] · A[g]) · s[g]`, and then
  each grid point multiplies a tile of 512 token rows by the merged weight of the tile's adapter. The reference computes
  the base product `x · Wᵀ` and adds the scaled two-step low-rank product `((x · A[g]ᵀ) · B[g]ᵀ) · s[g]` segment by
  segment. On the extended reals every change of float format is the identity and a product into a zero accumulator is
  a plain sum, so both are sums of products of the same entries; they agree by distributivity and an exchange of the
  sums over the rank and over the features (MergeLaw.lean), which needs the entries finite: the precondition
  (Finite.lean). Spec.lean names the common function; KernelRead.lean and KernelValue.lean show the kernel's result
  array is it, RefRead.lean that the reference's is.

  The three frames are the generated ones (the reference's is its generated run with the result dropped); the ideal
  pass rewrote nothing, so `preserves` is trivial.
-/
import proofs.«405972_j73959336837249_3_alg».proof.Defs
import proofs.«405972_j73959336837249_3_alg».proof.Proof.Gen.Kernel
import proofs.«405972_j73959336837249_3_alg».proof.Proof.Gen.Kernel.Skeleton
import proofs.«405972_j73959336837249_3_alg».proof.Proof.Gen.Kernel.Launch
import proofs.«405972_j73959336837249_3_alg».proof.Proof.Gen.Kernel.Points
import proofs.«405972_j73959336837249_3_alg».proof.Proof.Gen.Kernel.Frame
import proofs.«405972_j73959336837249_3_alg».proof.Proof.Gen.KernelIdeal
import proofs.«405972_j73959336837249_3_alg».proof.Proof.Gen.KernelIdeal.Skeleton
import proofs.«405972_j73959336837249_3_alg».proof.Proof.Gen.KernelIdeal.Launch
import proofs.«405972_j73959336837249_3_alg».proof.Proof.Gen.KernelIdeal.Points
import proofs.«405972_j73959336837249_3_alg».proof.Proof.Gen.KernelIdeal.Frame
import proofs.«405972_j73959336837249_3_alg».proof.Proof.Gen.ReferenceIdeal
import proofs.«405972_j73959336837249_3_alg».proof.Proof.Gen.Pre_finite_inputs
import proofs.«405972_j73959336837249_3_alg».proof.Proof.Gen.KernelIdeal.Value
import proofs.«405972_j73959336837249_3_alg».proof.Proof.Gen.ReferenceIdeal.Run
import proofs.«405972_j73959336837249_3_alg».proof.Proof.Gen.ReferenceIdeal.Read
import proofs.«405972_j73959336837249_3_alg».proof.Proof.Finite
import proofs.«405972_j73959336837249_3_alg».proof.Proof.KernelValue
import proofs.«405972_j73959336837249_3_alg».proof.Proof.RefRead
import Idealize.ShloMosaic.Adequacy
import Idealize.ShloMosaic.Init

noncomputable section

namespace Cert.Proof

open Idealize.ShloMosaic Idealize.SL.Sem

/-- Both programs end with the result array at `merged` of the (agreeing, finite) argument arrays: the kernel by its
    value (KernelValue.lean), the reference because its result stage is `split` (RefRead.lean), which for finite
    entries is `merged` (Spec.lean). -/
theorem algebraic : Cert.algebraic_KernelIdeal_ReferenceIdeal := by
  intro m ρ m' ρ' hpre hagree
  refine ⟨fun c => Cert.Lora.KernelValue.result m c, Cert.Lora.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  obtain ⟨hx, hw, ha, hb, hs⟩ := Cert.Finite.reals_of_pre _ _ _ _ _ (hpre c)
  rw [Cert.ReferenceIdeal.Read.val_main_v9_eq, Cert.Lora.RefRead.ref_eq_split, e0, e1, e2, e3, e4]
  exact Cert.Lora.split_eq_merged _ _ _ _ _ hx hw ha hb hs

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
